-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S512x64 : Shape := ⟨2, ![512, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S8192x64 .f32) (main_arg1 : FVec F S512x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  main_v8
-- ==== Kernel.lean ====
abbrev S8192x64 : Shape := ⟨2, ![8192, 64]⟩
abbrev S512x64 : Shape := ⟨2, ![512, 64]⟩
abbrev S64x512 : Shape := ⟨2, ![64, 512]⟩
abbrev S_ : Shape := ⟨0, ![]⟩
abbrev S512 : Shape := ⟨1, ![512]⟩
abbrev S512x1 : Shape := ⟨2, ![512, 1]⟩
abbrev S1x512 : Shape := ⟨2, ![1, 512]⟩
abbrev S8192x512 : Shape := ⟨2, ![8192, 512]⟩
abbrev S1x1 : Shape := ⟨2, ![1, 1]⟩
abbrev S1024x64 : Shape := ⟨2, ![1024, 64]⟩
abbrev S1024x512 : Shape := ⟨2, ![1024, 512]⟩
abbrev S1024 : Shape := ⟨1, ![1024]⟩
abbrev S1024x1 : Shape := ⟨2, ![1024, 1]⟩
abbrev S1 : Shape := ⟨1, ![1]⟩

abbrev nBuf : Space → Nat
  | .hbm => 13
  | .vmem => 10
  | .smem => 0
  | _ => 0

abbrev bufTy : (tb : Table) → Fin (tcTables nBuf tb) → BufTy
  | .hbm, ⟨0, _⟩ => ⟨S8192x64, .f32⟩
  | .hbm, ⟨1, _⟩ => ⟨S512x64, .f32⟩
  | .hbm, ⟨2, _⟩ => ⟨S64x512, .f32⟩
  | .hbm, ⟨3, _⟩ => ⟨S512x64, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S1x512, .f32⟩
  | .hbm, ⟨8, _⟩ => ⟨S8192x512, .f32⟩
  | .hbm, ⟨9, _⟩ => ⟨S1x1, .f32⟩
  | .hbm, ⟨10, _⟩ => ⟨S1x1, .f32⟩
  | .hbm, ⟨11, _⟩ => ⟨S_, .f32⟩
  | .hbm, ⟨12, _⟩ => ⟨S_, .f32⟩
  | .local _ .vmem, ⟨0, _⟩ => ⟨S1024x64, .f32⟩
  | .local _ .vmem, ⟨1, _⟩ => ⟨S1024x64, .f32⟩
  | .local _ .vmem, ⟨2, _⟩ => ⟨S64x512, .f32⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | .local _ .vmem, ⟨6, _⟩ => ⟨S1x1, .f32⟩
  | .local _ .vmem, ⟨7, _⟩ => ⟨S1x1, .f32⟩
  | .local _ .vmem, ⟨8, _⟩ => ⟨S1x512, .f32⟩
  | .local _ .vmem, ⟨9, _⟩ => ⟨S1x1, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v40 : BitVec 1 := Scalar.cmpi .eq arg0 c7_i32
  let v41 : BitVec 32 := Scalar.extui v40
  let c0_i32_22 : BitVec 32 := 0#32
  let v42 : BitVec 1 := Scalar.cmpi .ne v41 c0_i32_22
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  transposes_S512x64_S64x512_1_0 : S512x64.Transposes [1, 0] S64x512
  reducesTo_S512x64_S512_d1 : S512x64.ReducesTo [1] S512
  h_S_ : 0 < S_.numel
  bcast_S512_S512x1_0 : S512.BroadcastsInDim S512x1 (![0] : Fin 1 → Fin S512x1.rank)
  transposes_S512x1_S1x512_1_0 : S512x1.Transposes [1, 0] S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x64_S1024x64_0_0 : ∀ a, (![0, 0] : Fin 2 → Nat) a + S1024x64.size a ≤ S1024x64.size a
  h_S1024x64 : 0 < S1024x64.numel
  inb_S64x512_S64x512_0_0 : ∀ a, (![0, 0] : Fin 2 → Nat) a + S64x512.size a ≤ S64x512.size a
  h_S64x512 : 0 < S64x512.numel
  shapeCasts_S64x512_S64x512 : S64x512.ShapeCasts S64x512
  reduces_S1024x64_S1024 : S1024x64.Reduces [1] S1024
  shapeCasts_S1024_S1024x1 : S1024.ShapeCasts S1024x1
  bitsLt_bf16_f32 : FTy.bits .bf16 < FTy.bits .f32
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  reduces_S1024x512_S512 : S1024x512.Reduces [0] S512
  shapeCasts_S512_S1x512 : S512.ShapeCasts S1x512
  reduces_S1024x512_S1024 : S1024x512.Reduces [1] S1024
  reduces_S1024x1_S1 : S1024x1.Reduces [0] S1
  shapeCasts_S1_S1x1 : S1.ShapeCasts S1x1
  reduces_S1x512_S1 : S1x512.Reduces [1] S1
  shapeCasts_S1x1_S_ : S1x1.ShapeCasts S_
  dot_S1024x64_S64x512_S1024x512_1_0_0_1_n_n_wf : DotDims.WF S1024x64 S64x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .f32 = 32 ∨ (Rect.block (s := S8192x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x64 : Shape := ⟨2, ![8192, 64]⟩
abbrev S512x64 : Shape := ⟨2, ![512, 64]⟩
abbrev S8192x1x64 : Shape := ⟨3, ![8192, 1, 64]⟩
abbrev S1x512x64 : Shape := ⟨3, ![1, 512, 64]⟩
abbrev S8192x512x64 : Shape := ⟨3, ![8192, 512, 64]⟩
abbrev S_ : Shape := ⟨0, ![]⟩
abbrev S8192x512 : Shape := ⟨2, ![8192, 512]⟩
abbrev S512 : Shape := ⟨1, ![512]⟩
abbrev S8192 : Shape := ⟨1, ![8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S512x64, .f32⟩
  | .hbm, ⟨2, _⟩ => ⟨S8192x1x64, .f32⟩
  | .hbm, ⟨3, _⟩ => ⟨S1x512x64, .f32⟩
  | .hbm, ⟨4, _⟩ => ⟨S8192x512x64, .f32⟩
  | .hbm, ⟨5, _⟩ => ⟨S8192x512x64, .f32⟩
  | .hbm, ⟨6, _⟩ => ⟨S8192x512x64, .f32⟩
  | .hbm, ⟨7, _⟩ => ⟨S8192x512x64, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S512, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S8192x64_S8192x1x64_0_2 : S8192x64.BroadcastsInDim S8192x1x64 (![0, 2] : Fin 2 → Fin S8192x1x64.rank)
  bcast_S512x64_S1x512x64_1_2 : S512x64.BroadcastsInDim S1x512x64 (![1, 2] : Fin 2 → Fin S1x512x64.rank)
  bcast_S8192x1x64_S8192x512x64_0_1_2 : S8192x1x64.BroadcastsInDim S8192x512x64 (![0, 1, 2] : Fin 3 → Fin S8192x512x64.rank)
  bcast_S1x512x64_S8192x512x64_0_1_2 : S1x512x64.BroadcastsInDim S8192x512x64 (![0, 1, 2] : Fin 3 → Fin S8192x512x64.rank)
  reducesTo_S8192x512x64_S8192x512_d2 : S8192x512x64.ReducesTo [2] S8192x512
  h_S_ : 0 < S_.numel
  reducesTo_S8192x512_S512_d0 : S8192x512.ReducesTo [0] S512
  reducesTo_S512_S_d0 : S512.ReducesTo [0] S_
  reducesTo_S8192x512_S8192_d1 : S8192x512.ReducesTo [1] S8192
  reducesTo_S8192_S_d0 : S8192.ReducesTo [0] S_

variable [Facts₀]

class Facts : Prop extends Facts₀ where

variable [Facts]
-- ==== Proof.DistanceLaw.lean ====
/-
  The arithmetic behind the certificate, free of any program: over the extended reals, with every entry a real number,
  the squared Euclidean distance expands as ‖x‖² + ‖p‖² − 2⟨x, p⟩ and is nonnegative; the float patterns the two
  programs print denote +∞, 0, 2, 512, 8192 and 2⁻¹³; a minimum taken as a fold of `min` from +∞ is characterised by
  its lower bounds; and a sum over 8 · 1024 rows is the sum over eight blocks of the sums over each block's 1024 rows.
-/
import Idealize.ShloMosaic.PureOps.Ideal
import Idealize.ShloMosaic.PureOps.Ideal.Laws
import Idealize.ShloMosaic.Lib.ValueIdx
import Idealize.ShloMosaic.Lib.ValueIdxRank1

noncomputable section

open scoped BigOperators

namespace Cert.DistanceLaw

open Idealize.ShloMosaic

/-! ## The float patterns -/

theorem ofBits_inf : Ideal.ofBits .f32 0x7F800000#32 = ⊤ := by
  simp [Ideal.ofBits, Ideal.ieee]

theorem ofBits_two : Ideal.ofBits .f32 0x40000000#32 = ((2 : ℝ) : EReal) := by
  simp [Ideal.ofBits, Ideal.ieee]
  rw [← EReal.coe_mul]
  norm_num

theorem ofBits_512 : Ideal.ofBits .f32 0x44000000#32 = ((512 : ℝ) : EReal) := by
  simp [Ideal.ofBits, Ideal.ieee]
  rw [← EReal.coe_mul]
  norm_num

theorem ofBits_8192 : Ideal.ofBits .f32 0x46000000#32 = ((8192 : ℝ) : EReal) := by
  simp [Ideal.ofBits, Ideal.ieee]
  rw [← EReal.coe_mul]
  norm_num

theorem ofBits_inv8192 : Ideal.ofBits .f32 0x39000000#32 = ((1 / 8192 : ℝ) : EReal) := by
  simp [Ideal.ofBits, Ideal.ieee]
  rw [← EReal.coe_mul]
  norm_num

/-! ## Sums of reals inside the extended reals -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- ‖x‖² + ‖p‖² − 2⟨x, p⟩, clamped below at 0, is ‖x − p‖² when every coordinate is a real number: the expansion of the
    square holds in ℝ, and a sum of squares is nonnegative, so the clamp changes nothing. -/
theorem sqdist_expand {n : ℕ} (X P : Fin n → EReal) (hX : ∀ k, ∃ r : ℝ, X k = r) (hP : ∀ k, ∃ r : ℝ, P k = r) :
    max ((∑ k, X k * X k) + (0 + ∑ k, P k * P k) - ((2 : ℝ) : EReal) * ∑ k, X k * P k) 0
      = 0 + ∑ k, (X k - P k) * (X k - P k) := by
  choose x hx using hX
  choose p hp using hP
  simp only [hx, hp, zero_add, ← EReal.coe_mul, ← EReal.coe_sub, ← coe_sum, ← EReal.coe_add]
  have e : (∑ k, x k * x k) + (∑ k, p k * p k) - 2 * (∑ k, x k * p k) = ∑ k, (x k - p k) * (x k - p k) := by
    rw [Finset.mul_sum, ← Finset.sum_add_distrib, ← Finset.sum_sub_distrib]
    exact Finset.sum_congr rfl fun k _ => by ring
  rw [e]
  exact max_eq_left (by exact_mod_cast Finset.sum_nonneg fun k _ => mul_self_nonneg (x k - p k))

/-! ## A minimum as a fold from +∞ -/

/-- `c` is below the fold of `min` from +∞ over a whole finite index type exactly when it is below every term. -/
theorem le_foldMin_iff {ι : Type*} [Fintype ι] (f : ι → EReal) (c : EReal) :
    c ≤ (Finset.univ : Finset ι).fold min ⊤ f ↔ ∀ i, c ≤ f i := by
  rw [Finset.le_fold_min]
  simp

/-! ## Rows in blocks -/

/-- Row `r` of block `t`: row `1024 t + r` of the 8192. -/
def row (t : Fin 8) (r : Fin 1024) : Fin 8192 := ⟨1024 * t.val + r.val, by have := t.isLt; have := r.isLt; omega⟩

theorem row_val (t : Fin 8) (r : Fin 1024) : (row t r).val = 1024 * t.val + r.val := rfl

/-- Every row lies in exactly one block. -/
theorem exists_row (b : Fin 8192) : ∃ t r, b = row t r :=
  ⟨⟨b.val / 1024, by have := b.isLt; omega⟩, ⟨b.val % 1024, Nat.mod_lt _ (by norm_num)⟩, Fin.ext (by
    show b.val = 1024 * (b.val / 1024) + b.val % 1024
    omega)⟩

/-- The blocks partition the rows, as an equivalence. -/
def rowEquiv : Fin 8 × Fin 1024 ≃ Fin 8192 where
  toFun q := row q.1 q.2
  invFun b := (⟨b.val / 1024, by have := b.isLt; omega⟩, ⟨b.val % 1024, Nat.mod_lt _ (by norm_num)⟩)
  left_inv q := by
    obtain ⟨t, r⟩ := q
    have ht := t.isLt; have hr := r.isLt
    refine Prod.ext (Fin.ext ?_) (Fin.ext ?_)
    · show (1024 * t.val + r.val) / 1024 = t.val
      omega
    · show (1024 * t.val + r.val) % 1024 = r.val
      omega
  right_inv b := Fin.ext (by
    show 1024 * (b.val / 1024) + b.val % 1024 = b.val
    omega)

/-- A sum over all rows is the sum over the blocks of the sums over each block's rows. -/
theorem sum_rows {M : Type*} [AddCommMonoid M] (f : Fin 8192 → M) : ∑ b, f b = ∑ t : Fin 8, ∑ r : Fin 1024, f (row t r) := by
  rw [← Equiv.sum_comp rowEquiv f, Fintype.sum_prod_type]
  rfl

/-! ## The three results, as functions of the two argument arrays -/

open Idealize.ShloMosaic.ValueIdx

/-- A sum over a rank-1 index set is the sum over its coordinate. -/
theorem sum_idx1 {M : Type*} [AddCommMonoid M] {n : ℕ} (f : (⟨1, ![n]⟩ : Shape).Idx → M) : ∑ j, f j = ∑ v : Fin n, f (ix1 v) :=
  (Equiv.sum_comp (idxEquiv1 (n := n)).symm f).symm

/-- The distance of sample `b` to codebook vector `v` by the expansion ‖x‖² + ‖p‖² − 2⟨x, p⟩, clamped at 0 before the root. -/
def expDist (x : (⟨2, ![8192, 64]⟩ : Shape).Idx → EReal) (p : (⟨2, ![512, 64]⟩ : Shape).Idx → EReal) (b : Fin 8192) (v : Fin 512) : EReal :=
  Ideal.sqrt (max ((∑ k : Fin 64, x (ix2 b k) * x (ix2 b k)) + (0 + ∑ k : Fin 64, p (ix2 v k) * p (ix2 v k))
    - ((2 : ℝ) : EReal) * ∑ k : Fin 64, x (ix2 b k) * p (ix2 v k)) 0)

/-- The same distance as the root of the sum of squared differences. -/
def euclid (x : (⟨2, ![8192, 64]⟩ : Shape).Idx → EReal) (p : (⟨2, ![512, 64]⟩ : Shape).Idx → EReal) (b : Fin 8192) (v : Fin 512) : EReal :=
  Ideal.sqrt (0 + ∑ k : Fin 64, (x (ix2 b k) - p (ix2 v k)) * (x (ix2 b k) - p (ix2 v k)))

/-- On arrays of real numbers the two are one function. -/
theorem expDist_eq_euclid (x : (⟨2, ![8192, 64]⟩ : Shape).Idx → EReal) (p : (⟨2, ![512, 64]⟩ : Shape).Idx → EReal)
    (hx : ∀ i, ∃ r : ℝ, x i = r) (hp : ∀ i, ∃ r : ℝ, p i = r) : expDist x p = euclid x p := by
  funext b v
  unfold expDist euclid
  rw [sqdist_expand (fun k => x (ix2 b k)) (fun k => p (ix2 v k)) (fun k => hx _) (fun k => hp _)]

/-- The least distance to codebook vector `v` over all samples. -/
def colMin (D : Fin 8192 → Fin 512 → EReal) (v : Fin 512) : EReal := (Finset.univ : Finset (Fin 8192)).fold min ⊤ fun b => D b v

/-- The least distance of sample `b` over the codebook. -/
def rowMin (D : Fin 8192 → Fin 512 → EReal) (b : Fin 8192) : EReal := (Finset.univ : Finset (Fin 512)).fold min ⊤ fun v => D b v

/-- The mean over the codebook of each vector's least distance. -/
def meanColMin (D : Fin 8192 → Fin 512 → EReal) : EReal := Ideal.div (0 + ∑ v : Fin 512, colMin D v) ((512 : ℝ) : EReal)

/-- The mean over the samples of each sample's least distance. -/
def meanRowMin (D : Fin 8192 → Fin 512 → EReal) : EReal := Ideal.div (0 + ∑ b : Fin 8192, rowMin D b) ((8192 : ℝ) : EReal)

/-- A value whose lower bounds are exactly the common lower bounds of a column, block by block, is the column's minimum. -/
theorem eq_colMin (D : Fin 8192 → Fin 512 → EReal) (v : Fin 512) (y : EReal)
    (hy : ∀ c, c ≤ y ↔ ∀ (t : Fin 8) (r : Fin 1024), c ≤ D (row t r) v) : y = colMin D v :=
  eq_of_forall_le_iff fun c => by
    rw [hy c, colMin, le_foldMin_iff]
    exact ⟨fun h b => by obtain ⟨t, r, rfl⟩ := exists_row b; exact h t r, fun h t r => h _⟩

/-- The blocks' sums of row minima, added up and scaled by 2⁻¹³, are the mean of the row minima: division by 8192 is
    the product with its reciprocal on every extended real. -/
theorem scaled_sum_eq_meanRowMin (D : Fin 8192 → Fin 512 → EReal) :
    (∑ t : Fin 8, ∑ r : Fin 1024, rowMin D (row t r)) * ((1 / 8192 : ℝ) : EReal) = meanRowMin D := by
  rw [meanRowMin, Ideal.div_coe (by norm_num : (8192 : ℝ) ≠ 0), zero_add, sum_rows]

end Cert.DistanceLaw

end
-- ==== Proof.RealEntries.lean ====
/-
  The precondition, read back: it states that every entry of both argument arrays has absolute value strictly below
  +∞, and an extended real with that property is a real number.
-/
import proofs.«139246_j11802570129617_1_alg».proof.Pre_finite_inputs
import Idealize.ShloMosaic.Lib.ReduceAll
import Idealize.ShloMosaic.Lib.ValueIdx
import Idealize.ShloMosaic.PureOps.Ideal

noncomputable section

namespace Cert.Pre_finite_inputs.Decode

open Idealize.ShloMosaic Cert.Pre_finite_inputs

instance : Subsingleton S_.Idx := ⟨fun a b => funext fun d => d.elim0⟩

/-- An extended real whose absolute value compares strictly below the pattern of +∞ is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = r := by
  have hinf : Ideal.ofBits .f32 0x7F800000#32 = ⊤ := by simp [Ideal.ofBits, Ideal.ieee]
  rw [hinf] at h
  induction x using EReal.rec with
  | bot => exact absurd h (by simp [FloatOps.cmpf, FloatOps.hostAbsf, FloatOps.absf, Ideal.cmp])
  | top => exact absurd h (by simp [FloatOps.cmpf, FloatOps.hostAbsf, FloatOps.absf, Ideal.cmp])
  | coe r => exact ⟨r, rfl⟩

variable [Facts]

/-- Under the precondition every entry of both argument arrays is a real number. -/
theorem real_entries (x : FVec Ideal S8192x64 .f32) (p : FVec Ideal S512x64 .f32)
    (h : fn (F := Ideal) x p = fun _ => 1#1) : (∀ i, ∃ r : ℝ, x i = r) ∧ (∀ i, ∃ r : ℝ, p i = r) := by
  have h0 := congrFun h ValueIdx.ix0
  dsimp only [fn] at h0
  obtain ⟨hx, hp⟩ := IntOp.andi_eq_one.1 h0
  exact ⟨fun i => real_of_abs_lt _ (Host.reduce_andi_all _ _ _ _ _ hx i),
    fun i => real_of_abs_lt _ (Host.reduce_andi_all _ _ _ _ _ hp i)⟩

end Cert.Pre_finite_inputs.Decode

end
-- ==== Proof.Reference.lean ====
/-
  The reference program's three results, read operation by operation: the distance of sample b to codebook vector v is the
  root of the sum over the 64 coordinates of the squared differences; the first scalar is the mean over the codebook of each
  vector's least distance over the samples; the second the mean over the samples of each sample's least distance over the
  codebook. A minimum the host takes by reducing with `min` from +∞ is the fold of `min` over the reduced axis, in any order.
-/
import proofs.«139246_j11802570129617_1_alg».proof.Proof.Gen.ReferenceIdeal.Run
import proofs.«139246_j11802570129617_1_alg».proof.Proof.Gen.ReferenceIdeal.Read
import proofs.«139246_j11802570129617_1_alg».proof.Proof.DistanceLaw
import Idealize.ShloMosaic.Lib.ValueIdxRank1
import Idealize.ShloMosaic.PureOps.Reduce

noncomputable section

open scoped BigOperators

namespace Cert.ReferenceIdeal.Results

open Cert.ReferenceIdeal Cert.ReferenceIdeal.Gen Cert.ReferenceIdeal.Read Idealize.ShloMosaic Idealize.ShloMosaic.ValueIdx
open Cert.DistanceLaw

theorem dropRows : S8192x512.Reduces [0] S512 := by decide
theorem dropCols : S8192x512.Reduces [1] S8192 := by decide

/-- The distance array at (b, v). -/
theorem dist_apply (x : (⟨S8192x64, .f32⟩ : BufTy).Contents (Elt Ideal)) (p : (⟨S512x64, .f32⟩ : BufTy).Contents (Elt Ideal))
    (i : S8192x512.Idx) : val_main_v7 (F := Ideal) x p i = euclid x p (i 0) (i 1) := by
  rw [val_main_v7_apply, val_main_v6_apply, Ideal.hostUnary_sqrt_def]
  unfold euclid
  refine congrArg Ideal.sqrt ?_
  rw [val_main_cst_apply, Ideal.ofBits_def, Ideal.ofBits_zero_f32]
  refine congrArg (0 + ·) (Finset.sum_congr rfl fun k _ => ?_)
  have ex : idx_main_v0 (idx_main_v2 (idx_main_v6 i k)) = ix2 (i 0) k :=
    funext fun a => Fin.ext (by match a with | ⟨0, _⟩ => rfl | ⟨1, _⟩ => rfl)
  have ep : idx_main_v1 (idx_main_v3 (idx_main_v6 i k)) = ix2 (i 1) k :=
    funext fun a => Fin.ext (by match a with | ⟨0, _⟩ => rfl | ⟨1, _⟩ => rfl)
  rw [val_main_v5_apply, val_main_v4_apply, val_main_v2_apply, val_main_v3_apply, val_main_v0_apply, val_main_v1_apply,
    Ideal.mulf_def, Ideal.subf_def, ex, ep]
  rfl

/-- The minimum over the samples, at codebook vector v. -/
theorem colMin_apply (x : (⟨S8192x64, .f32⟩ : BufTy).Contents (Elt Ideal)) (p : (⟨S512x64, .f32⟩ : BufTy).Contents (Elt Ideal))
    (v : Fin 512) : val_main_v8 (F := Ideal) x p (ix1 v) = colMin (euclid x p) v := by
  unfold val_main_v8
  rw [Host.reduce_eq_fold_single (FloatOps.minimumf (F := Ideal) (φ := .f32)) _ _ reducesTo_S8192x512_S512_d0 dropRows h_S_ (ix1 v)]
  unfold colMin
  rw [val_main_cst_0_apply, Ideal.ofBits_def, ofBits_inf]
  have hf : (val_main_v7 (F := Ideal) x p ∘ dropRows.lift (ix1 v)) = fun b : Fin 8192 => euclid x p b v :=
    funext fun b => (dist_apply x p _).trans (congrArg₂ (euclid x p) (Fin.ext rfl) (Fin.ext rfl))
  rw [hf]
  rfl

/-- The minimum over the codebook, at sample b. -/
theorem rowMin_apply (x : (⟨S8192x64, .f32⟩ : BufTy).Contents (Elt Ideal)) (p : (⟨S512x64, .f32⟩ : BufTy).Contents (Elt Ideal))
    (b : Fin 8192) : val_main_v11 (F := Ideal) x p (ix1 b) = rowMin (euclid x p) b := by
  unfold val_main_v11
  rw [Host.reduce_eq_fold_single (FloatOps.minimumf (F := Ideal) (φ := .f32)) _ _ reducesTo_S8192x512_S8192_d1 dropCols h_S_ (ix1 b)]
  unfold rowMin
  rw [val_main_cst_3_apply, Ideal.ofBits_def, ofBits_inf]
  have hf : (val_main_v7 (F := Ideal) x p ∘ dropCols.lift (ix1 b)) = fun v : Fin 512 => euclid x p b v :=
    funext fun v => (dist_apply x p _).trans (congrArg₂ (euclid x p) (Fin.ext rfl) (Fin.ext rfl))
  rw [hf]
  rfl

/-- The three results as functions of the argument arrays. -/
theorem distances_eq (x : (⟨S8192x64, .f32⟩ : BufTy).Contents (Elt Ideal)) (p : (⟨S512x64, .f32⟩ : BufTy).Contents (Elt Ideal)) :
    val_main_v7 (F := Ideal) x p = fun i => euclid x p (i 0) (i 1) := funext fun i => dist_apply x p i

theorem meanCol_eq (x : (⟨S8192x64, .f32⟩ : BufTy).Contents (Elt Ideal)) (p : (⟨S512x64, .f32⟩ : BufTy).Contents (Elt Ideal)) :
    val_main_v10 (F := Ideal) x p = fun _ => meanColMin (euclid x p) := by
  funext i
  rw [val_main_v10_apply, val_main_v9_apply, val_main_cst_1_apply, val_main_cst_2_apply, Ideal.hostDivf_def, Ideal.ofBits_def,
    Ideal.ofBits_def, Ideal.ofBits_zero_f32, ofBits_512, sum_idx1]
  rw [Finset.sum_congr rfl fun v _ => colMin_apply x p v]
  rfl

theorem meanRow_eq (x : (⟨S8192x64, .f32⟩ : BufTy).Contents (Elt Ideal)) (p : (⟨S512x64, .f32⟩ : BufTy).Contents (Elt Ideal)) :
    val_main_v13 (F := Ideal) x p = fun _ => meanRowMin (euclid x p) := by
  funext i
  rw [val_main_v13_apply, val_main_v12_apply, val_main_cst_4_apply, val_main_cst_5_apply, Ideal.hostDivf_def, Ideal.ofBits_def,
    Ideal.ofBits_def, Ideal.ofBits_zero_f32, ofBits_8192, sum_idx1]
  rw [Finset.sum_congr rfl fun b _ => rowMin_apply x p b]
  rfl

end Cert.ReferenceIdeal.Results

end
-- ==== Proof.Stored.lean ====
/-
  What each case of the kernel body leaves in the distance block, in the two accumulators it carries from one batch tile
  to the next, and (at the last tile) in the two one-element results: each is the body's own arithmetic of the tile's input
  blocks and of what the accumulators held before, because every store covers its buffer whole and every load reads a
  whole buffer.
-/
import proofs.«139246_j11802570129617_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Stored

open Cert.KernelIdeal Cert.KernelIdeal.Gen

variable {F : FTy → Type} [FloatOps F]

theorem hz : (![0, 0] : Fin 2 → Nat) = fun _ => 0 := funext fun a => by fin_cases a <;> rfl

theorem dist_A (c : Dev nD) (i : grid0.Coords) (arg1 : Memref sig .tc .vmem S1024x64 .f32) (harg1 : arg1.IsWhole) (arg2 : Memref sig .tc .vmem S64x512 .f32) (harg2 : arg2.IsWhole) (arg3 : Memref sig .tc .vmem S1x512 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x1 .f32) (harg8 : arg8.IsWhole) (hc0 : cond0_0 i) (hc1 : ¬cond0_1 i) (x0 : Vec F S1024x64 .f32) (x1 : Vec F S64x512 .f32) (x2 : Vec F S1x512 .f32) :
    out0_A_3 c i arg1 harg1 arg2 harg2 arg3 harg3 arg4 harg4 arg5 harg5 arg6 harg6 arg7 harg7 arg8 harg8 hc0 hc1 x0 x1 x2 = k0_pay6 x0 x1 x2 := by
  unfold out0_A_3
  rw [View.read_writes_eq_canon _ _ _ (cover0_A_3 c i arg1 harg1 arg2 harg2 arg3 harg3 arg4 harg4 arg5 harg5 arg6 harg6 arg7 harg7 arg8 harg8 hc0 hc1 x0 x1 x2)]
  unfold kernelRun0_A
  dsimp only
  sl_unfold_words
  rw [View.canon_unit_zero hz]
  simp only [View.readAt_eq_ld, harg1.read_unread, harg2.read_unread, harg3.read_unread, View.ld_unit_zero (S := S1024x64) hz, View.ld_unit_zero (S := S64x512) hz, View.ld_unit_zero (S := S1x512) hz, View.ld_unit_zero (S := S1x1) hz, View.ld_unit_zero (S := S1024x512) hz]

theorem colAcc_A (c : Dev nD) (i : grid0.Coords) (arg1 : Memref sig .tc .vmem S1024x64 .f32) (harg1 : arg1.IsWhole) (arg2 : Memref sig .tc .vmem S64x512 .f32) (harg2 : arg2.IsWhole) (arg3 : Memref sig .tc .vmem S1x512 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x1 .f32) (harg8 : arg8.IsWhole) (hc0 : cond0_0 i) (hc1 : ¬cond0_1 i) (x0 : Vec F S1024x64 .f32) (x1 : Vec F S64x512 .f32) (x2 : Vec F S1x512 .f32) :
    sout0_A_0 c i arg1 harg1 arg2 harg2 arg3 harg3 arg4 harg4 arg5 harg5 arg6 harg6 arg7 harg7 arg8 harg8 hc0 hc1 x0 x1 x2 = k0_pay7 x0 x1 x2 k0_pay4 := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x512) hz, View.readCov_unit_zero (S := S1x512) _ hz]
  simp only [View.readAt_eq_ld, harg1.read_unread, harg2.read_unread, harg3.read_unread, View.ld_unit_zero (S := S1024x64) hz, View.ld_unit_zero (S := S64x512) hz, View.ld_unit_zero (S := S1x512) hz, View.ld_unit_zero (S := S1x1) hz, View.ld_unit_zero (S := S1024x512) hz]

theorem sumAcc_A (c : Dev nD) (i : grid0.Coords) (arg1 : Memref sig .tc .vmem S1024x64 .f32) (harg1 : arg1.IsWhole) (arg2 : Memref sig .tc .vmem S64x512 .f32) (harg2 : arg2.IsWhole) (arg3 : Memref sig .tc .vmem S1x512 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x1 .f32) (harg8 : arg8.IsWhole) (hc0 : cond0_0 i) (hc1 : ¬cond0_1 i) (x0 : Vec F S1024x64 .f32) (x1 : Vec F S64x512 .f32) (x2 : Vec F S1x512 .f32) :
    sout0_A_1 c i arg1 harg1 arg2 harg2 arg3 harg3 arg4 harg4 arg5 harg5 arg6 harg6 arg7 harg7 arg8 harg8 hc0 hc1 x0 x1 x2 = k0_pay1 (k0_pay8 x0 x1 x2) k0_pay5 := by
  unfold sout0_A_1
  rw [View.read_writes_eq_canon _ _ _ (scover0_A_1 c i arg1 harg1 arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, View.ld_unit_zero (S := S1024x64) hz, View.ld_unit_zero (S := S64x512) hz, View.ld_unit_zero (S := S1x512) hz, View.ld_unit_zero (S := S1x1) hz, View.ld_unit_zero (S := S1024x512) hz]

theorem dist_B (c : Dev nD) (i : grid0.Coords) (arg1 : Memref sig .tc .vmem S1024x64 .f32) (harg1 : arg1.IsWhole) (arg2 : Memref sig .tc .vmem S64x512 .f32) (harg2 : arg2.IsWhole) (arg3 : Memref sig .tc .vmem S1x512 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x1 .f32) (harg8 : arg8.IsWhole) (hc0 : ¬cond0_0 i) (hc1 : ¬cond0_1 i) (x0 : Vec F S1024x64 .f32) (x1 : Vec F S64x512 .f32) (x2 : Vec F S1x512 .f32) (xs0 : Vec F S1x512 .f32) (xs1 : Vec F S1x1 .f32) :
    out0_B_3 c i arg1 harg1 arg2 harg2 arg3 harg3 arg4 harg4 arg5 harg5 arg6 harg6 arg7 harg7 arg8 harg8 hc0 hc1 x0 x1 x2 xs0 xs1 = k0_pay6 x0 x1 x2 := by
  unfold out0_B_3
  rw [View.read_writes_eq_canon _ _ _ (cover0_B_3 c i arg1 harg1 arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz]
  simp only [View.readAt_eq_ld, harg1.read_unread, harg2.read_unread, harg3.read_unread, View.ld_unit_zero (S := S1024x64) hz, View.ld_unit_zero (S := S64x512) hz, View.ld_unit_zero (S := S1x512) hz, View.ld_unit_zero (S := S1x1) hz, View.ld_unit_zero (S := S1024x512) hz]

theorem colAcc_B (c : Dev nD) (i : grid0.Coords) (arg1 : Memref sig .tc .vmem S1024x64 .f32) (harg1 : arg1.IsWhole) (arg2 : Memref sig .tc .vmem S64x512 .f32) (harg2 : arg2.IsWhole) (arg3 : Memref sig .tc .vmem S1x512 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x1 .f32) (harg8 : arg8.IsWhole) (hc0 : ¬cond0_0 i) (hc1 : ¬cond0_1 i) (x0 : Vec F S1024x64 .f32) (x1 : Vec F S64x512 .f32) (x2 : Vec F S1x512 .f32) (xs0 : Vec F S1x512 .f32) (xs1 : Vec F S1x1 .f32) :
    sout0_B_0 c i arg1 harg1 arg2 harg2 arg3 harg3 arg4 harg4 arg5 harg5 arg6 harg6 arg7 harg7 arg8 harg8 hc0 hc1 x0 x1 x2 xs0 xs1 = k0_pay7 x0 x1 x2 xs0 := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz]
  simp only [View.readAt_eq_ld, harg1.read_unread, harg2.read_unread, harg3.read_unread, View.ld_unit_zero (S := S1024x64) hz, View.ld_unit_zero (S := S64x512) hz, View.ld_unit_zero (S := S1x512) hz, View.ld_unit_zero (S := S1x1) hz, View.ld_unit_zero (S := S1024x512) hz, harg7.read_unread, harg8.read_unread, View.readCov_unit_zero (S := S1x512) _ hz, View.readCov_unit_zero (S := S1x1) _ hz]

theorem sumAcc_B (c : Dev nD) (i : grid0.Coords) (arg1 : Memref sig .tc .vmem S1024x64 .f32) (harg1 : arg1.IsWhole) (arg2 : Memref sig .tc .vmem S64x512 .f32) (harg2 : arg2.IsWhole) (arg3 : Memref sig .tc .vmem S1x512 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x1 .f32) (harg8 : arg8.IsWhole) (hc0 : ¬cond0_0 i) (hc1 : ¬cond0_1 i) (x0 : Vec F S1024x64 .f32) (x1 : Vec F S64x512 .f32) (x2 : Vec F S1x512 .f32) (xs0 : Vec F S1x512 .f32) (xs1 : Vec F S1x1 .f32) :
    sout0_B_1 c i arg1 harg1 arg2 harg2 arg3 harg3 arg4 harg4 arg5 harg5 arg6 harg6 arg7 harg7 arg8 harg8 hc0 hc1 x0 x1 x2 xs0 xs1 = k0_pay1 (k0_pay8 x0 x1 x2) xs1 := by
  unfold sout0_B_1
  rw [View.read_writes_eq_canon _ _ _ (scover0_B_1 c i arg1 harg1 arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz]
  simp only [View.readAt_eq_ld, harg1.read_unread, harg2.read_unread, harg3.read_unread, View.ld_unit_zero (S := S1024x64) hz, View.ld_unit_zero (S := S64x512) hz, View.ld_unit_zero (S := S1x512) hz, View.ld_unit_zero (S := S1x1) hz, View.ld_unit_zero (S := S1024x512) hz, harg7.read_unread, harg8.read_unread, View.readCov_unit_zero (S := S1x512) _ hz, View.readCov_unit_zero (S := S1x1) _ hz]

theorem dist_C (c : Dev nD) (i : grid0.Coords) (arg1 : Memref sig .tc .vmem S1024x64 .f32) (harg1 : arg1.IsWhole) (arg2 : Memref sig .tc .vmem S64x512 .f32) (harg2 : arg2.IsWhole) (arg3 : Memref sig .tc .vmem S1x512 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x1 .f32) (harg8 : arg8.IsWhole) (hc0 : ¬cond0_0 i) (hc1 : cond0_1 i) (x0 : Vec F S1024x64 .f32) (x1 : Vec F S64x512 .f32) (x2 : Vec F S1x512 .f32) (xs0 : Vec F S1x512 .f32) (xs1 : Vec F S1x1 .f32) :
    out0_C_3 c i arg1 harg1 arg2 harg2 arg3 harg3 arg4 harg4 arg5 harg5 arg6 harg6 arg7 harg7 arg8 harg8 hc0 hc1 x0 x1 x2 xs0 xs1 = k0_pay6 x0 x1 x2 := by
  unfold out0_C_3
  rw [View.read_writes_eq_canon _ _ _ (cover0_C_3 c i arg1 harg1 arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg1.read_unread, harg2.read_unread, harg3.read_unread, View.ld_unit_zero (S := S1024x64) hz, View.ld_unit_zero (S := S64x512) hz, View.ld_unit_zero (S := S1x512) hz, View.ld_unit_zero (S := S1x1) hz, View.ld_unit_zero (S := S1024x512) hz]

theorem colAcc_C (c : Dev nD) (i : grid0.Coords) (arg1 : Memref sig .tc .vmem S1024x64 .f32) (harg1 : arg1.IsWhole) (arg2 : Memref sig .tc .vmem S64x512 .f32) (harg2 : arg2.IsWhole) (arg3 : Memref sig .tc .vmem S1x512 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x1 .f32) (harg8 : arg8.IsWhole) (hc0 : ¬cond0_0 i) (hc1 : cond0_1 i) (x0 : Vec F S1024x64 .f32) (x1 : Vec F S64x512 .f32) (x2 : Vec F S1x512 .f32) (xs0 : Vec F S1x512 .f32) (xs1 : Vec F S1x1 .f32) :
    sout0_C_0 c i arg1 harg1 arg2 harg2 arg3 harg3 arg4 harg4 arg5 harg5 arg6 harg6 arg7 harg7 arg8 harg8 hc0 hc1 x0 x1 x2 xs0 xs1 = k0_pay7 x0 x1 x2 xs0 := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg1.read_unread, harg2.read_unread, harg3.read_unread, View.ld_unit_zero (S := S1024x64) hz, View.ld_unit_zero (S := S64x512) hz, View.ld_unit_zero (S := S1x512) hz, View.ld_unit_zero (S := S1x1) hz, View.ld_unit_zero (S := S1024x512) hz, harg7.read_unread, harg8.read_unread, View.readCov_unit_zero (S := S1x512) _ hz, View.readCov_unit_zero (S := S1x1) _ hz]

theorem sumAcc_C (c : Dev nD) (i : grid0.Coords) (arg1 : Memref sig .tc .vmem S1024x64 .f32) (harg1 : arg1.IsWhole) (arg2 : Memref sig .tc .vmem S64x512 .f32) (harg2 : arg2.IsWhole) (arg3 : Memref sig .tc .vmem S1x512 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x1 .f32) (harg8 : arg8.IsWhole) (hc0 : ¬cond0_0 i) (hc1 : cond0_1 i) (x0 : Vec F S1024x64 .f32) (x1 : Vec F S64x512 .f32) (x2 : Vec F S1x512 .f32) (xs0 : Vec F S1x512 .f32) (xs1 : Vec F S1x1 .f32) :
    sout0_C_1 c i arg1 harg1 arg2 harg2 arg3 harg3 arg4 harg4 arg5 harg5 arg6 harg6 arg7 harg7 arg8 harg8 hc0 hc1 x0 x1 x2 xs0 xs1 = k0_pay1 (k0_pay8 x0 x1 x2) xs1 := by
  unfold sout0_C_1
  rw [View.read_writes_eq_canon _ _ _ (scover0_C_1 c i arg1 harg1 arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg1.read_unread, harg2.read_unread, harg3.read_unread, View.ld_unit_zero (S := S1024x64) hz, View.ld_unit_zero (S := S64x512) hz, View.ld_unit_zero (S := S1x512) hz, View.ld_unit_zero (S := S1x1) hz, View.ld_unit_zero (S := S1024x512) hz, harg7.read_unread, harg8.read_unread, View.readCov_unit_zero (S := S1x512) _ hz, View.readCov_unit_zero (S := S1x1) _ hz]

theorem meanCol_C (c : Dev nD) (i : grid0.Coords) (arg1 : Memref sig .tc .vmem S1024x64 .f32) (harg1 : arg1.IsWhole) (arg2 : Memref sig .tc .vmem S64x512 .f32) (harg2 : arg2.IsWhole) (arg3 : Memref sig .tc .vmem S1x512 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x1 .f32) (harg8 : arg8.IsWhole) (hc0 : ¬cond0_0 i) (hc1 : cond0_1 i) (x0 : Vec F S1024x64 .f32) (x1 : Vec F S64x512 .f32) (x2 : Vec F S1x512 .f32) (xs0 : Vec F S1x512 .f32) (xs1 : Vec F S1x1 .f32) :
    out0_C_4 c i arg1 harg1 arg2 harg2 arg3 harg3 arg4 harg4 arg5 harg5 arg6 harg6 arg7 harg7 arg8 harg8 hc0 hc1 x0 x1 x2 xs0 xs1 = k0_pay2 (k0_pay7 x0 x1 x2 xs0) := by
  unfold out0_C_4
  rw [View.read_writes_eq_canon _ _ _ (cover0_C_4 c i arg1 harg1 arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg1.read_unread, harg2.read_unread, harg3.read_unread, View.ld_unit_zero (S := S1024x64) hz, View.ld_unit_zero (S := S64x512) hz, View.ld_unit_zero (S := S1x512) hz, View.ld_unit_zero (S := S1x1) hz, View.ld_unit_zero (S := S1024x512) hz, harg7.read_unread, harg8.read_unread, View.readCov_unit_zero (S := S1x512) _ hz, View.readCov_unit_zero (S := S1x1) _ hz]

theorem meanRow_C (c : Dev nD) (i : grid0.Coords) (arg1 : Memref sig .tc .vmem S1024x64 .f32) (harg1 : arg1.IsWhole) (arg2 : Memref sig .tc .vmem S64x512 .f32) (harg2 : arg2.IsWhole) (arg3 : Memref sig .tc .vmem S1x512 .f32) (harg3 : arg3.IsWhole) (arg4 : Memref sig .tc .vmem S1024x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x512 .f32) (harg7 : arg7.IsWhole) (arg8 : Memref sig .tc .vmem S1x1 .f32) (harg8 : arg8.IsWhole) (hc0 : ¬cond0_0 i) (hc1 : cond0_1 i) (x0 : Vec F S1024x64 .f32) (x1 : Vec F S64x512 .f32) (x2 : Vec F S1x512 .f32) (xs0 : Vec F S1x512 .f32) (xs1 : Vec F S1x1 .f32) :
    out0_C_5 c i arg1 harg1 arg2 harg2 arg3 harg3 arg4 harg4 arg5 harg5 arg6 harg6 arg7 harg7 arg8 harg8 hc0 hc1 x0 x1 x2 xs0 xs1 = k0_pay3 (k0_pay1 (k0_pay8 x0 x1 x2) xs1) := by
  unfold out0_C_5
  rw [View.read_writes_eq_canon _ _ _ (cover0_C_5 c i arg1 harg1 arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg1.read_unread, harg2.read_unread, harg3.read_unread, View.ld_unit_zero (S := S1024x64) hz, View.ld_unit_zero (S := S64x512) hz, View.ld_unit_zero (S := S1x512) hz, View.ld_unit_zero (S := S1x1) hz, View.ld_unit_zero (S := S1024x512) hz, harg7.read_unread, harg8.read_unread, View.readCov_unit_zero (S := S1x512) _ hz, View.readCov_unit_zero (S := S1x1) _ hz]

end Cert.KernelIdeal.Stored

end
-- ==== Proof.LibColumns.lean ====
/-
  Two layout operations read at an entry, for a column kept as an [a, 1] matrix — what a row reduction with
  kept dimensions passes through on its way back over the rows: a vector of a entries cast to one column, and
  one column laid along every column of an a × b matrix. Stated for any element type and any extents.
-/
import Idealize.ShloMosaic.Lib.Pipeline.Value
import Idealize.ShloMosaic.Lib.ValueIdx

namespace Cert.Lib.Columns

open Idealize.ShloMosaic Idealize.ShloMosaic.ValueIdx

variable {α : Type}

/-- An `[a]` array cast to `[a, 1]` reads, at `(i, u)`, the operand at `i`, whatever the unit coordinate `u`:
    both indices have the same row-major position, i · 1 + 0 = i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Columns
-- ==== Proof.Arith.lean ====
/-
  The kernel body's arithmetic at one entry, over the extended reals. For one batch tile (1024 samples) against the
  whole codebook: the distance block is, at (r, v), the root of ‖x_r‖² + ‖p_v‖² − 2⟨x_r, p_v⟩ clamped at 0 — the row sum of
  squares, the host's ‖p_v‖² read from its one row, and the matrix product read as a sum over the 64 coordinates (the
  change of format before the product is the identity here); the column accumulator takes, entry by entry, the minimum
  with the tile's column minimum; the scalar accumulator adds the tile's sum of row minima; and the last tile writes the
  column accumulator's sum divided by 512 and the scalar accumulator times 2⁻¹³.
-/
import proofs.«139246_j11802570129617_1_alg».proof.Proof.Gen.KernelIdeal.Skeleton
import proofs.«139246_j11802570129617_1_alg».proof.Proof.DistanceLaw
import proofs.«139246_j11802570129617_1_alg».proof.Proof.LibColumns
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

open scoped BigOperators

namespace Cert.KernelIdeal.Arith

open Cert.KernelIdeal Cert.KernelIdeal.Gen Idealize.ShloMosaic Idealize.ShloMosaic.ValueIdx
open Cert.DistanceLaw Cert.Lib.Columns

/-! ## The matrix product's operand indices -/

theorem lhs_0 (i : S1024x512.Idx) (q : dot_S1024x64_S64x512_S1024x512_1_0_0_1_n_n.contr.Idx) : (dot_S1024x64_S64x512_S1024x512_1_0_0_1_n_n.lhsIdx i q 0).val = (i 0).val := by
  unfold DotDims.lhsIdx
  rw [dif_neg (show ¬(0 : Fin S1024x64.rank) ∈ dot_S1024x64_S64x512_S1024x512_1_0_0_1_n_n.lhsBatch by decide), dif_pos (show (0 : Fin S1024x64.rank) ∈ dot_S1024x64_S64x512_S1024x512_1_0_0_1_n_n.lhsNonContracting by decide)]
  rfl
theorem lhs_1 (i : S1024x512.Idx) (q : dot_S1024x64_S64x512_S1024x512_1_0_0_1_n_n.contr.Idx) : (dot_S1024x64_S64x512_S1024x512_1_0_0_1_n_n.lhsIdx i q 1).val = (q ⟨0, by decide⟩).val :=
  dot_S1024x64_S64x512_S1024x512_1_0_0_1_n_n.lhsIdx_val_of_single rfl i q
theorem rhs_0 (i : S1024x512.Idx) (q : dot_S1024x64_S64x512_S1024x512_1_0_0_1_n_n.contr.Idx) : (dot_S1024x64_S64x512_S1024x512_1_0_0_1_n_n.rhsIdx i q 0).val = (q ⟨0, by decide⟩).val :=
  dot_S1024x64_S64x512_S1024x512_1_0_0_1_n_n.rhsIdx_val_of_single rfl i q
theorem rhs_1 (i : S1024x512.Idx) (q : dot_S1024x64_S64x512_S1024x512_1_0_0_1_n_n.contr.Idx) : (dot_S1024x64_S64x512_S1024x512_1_0_0_1_n_n.rhsIdx i q 1).val = (i 1).val := by
  unfold DotDims.rhsIdx
  rw [dif_neg (show ¬(1 : Fin S64x512.rank) ∈ dot_S1024x64_S64x512_S1024x512_1_0_0_1_n_n.rhsBatch by decide), dif_pos (show (1 : Fin S64x512.rank) ∈ dot_S1024x64_S64x512_S1024x512_1_0_0_1_n_n.rhsNonContracting by decide)]
  rfl

/-- The product into the zero accumulator, at (r, v): the sum over the 64 coordinates of the two operands' products. -/
theorem cross_apply {φ₁ φ₂ : FTy} (a : FVec Ideal S1024x64 φ₁) (b : FVec Ideal S64x512 φ₂) (r : Fin 1024) (v : Fin 512) :
    FloatOps.matmul dot_S1024x64_S64x512_S1024x512_1_0_0_1_n_n none a b (constant S1024x512 .f32 0x00000000#32) (ix2 r v)
      = ∑ k : Fin 64, a (ix2 r k) * b (ix2 k v) := by
  rw [Ideal.matmul_constant_zero_apply, ← Equiv.sum_comp (contrEquiv1 dot_S1024x64_S64x512_S1024x512_1_0_0_1_n_n 64 rfl rfl).symm]
  refine Finset.sum_congr rfl fun k _ => ?_
  have hk := contrEquiv1_symm_val dot_S1024x64_S64x512_S1024x512_1_0_0_1_n_n 64 rfl rfl k
  have el : dot_S1024x64_S64x512_S1024x512_1_0_0_1_n_n.lhsIdx (ix2 r v) ((contrEquiv1 dot_S1024x64_S64x512_S1024x512_1_0_0_1_n_n 64 rfl rfl).symm k) = ix2 r k := funext fun a => Fin.ext (by
    match a with
    | ⟨0, _⟩ => exact lhs_0 _ _
    | ⟨1, _⟩ => exact (lhs_1 _ _).trans hk)
  have er : dot_S1024x64_S64x512_S1024x512_1_0_0_1_n_n.rhsIdx (ix2 r v) ((contrEquiv1 dot_S1024x64_S64x512_S1024x512_1_0_0_1_n_n 64 rfl rfl).symm k) = ix2 k v := funext fun a => Fin.ext (by
    match a with
    | ⟨0, _⟩ => exact (rhs_0 _ _).trans hk
    | ⟨1, _⟩ => exact rhs_1 _ _)
  rw [el, er]

/-! ## The reductions -/

/-- A row's sum of squares. -/
theorem rowSumSq_apply (xb : FVec Ideal S1024x64 .f32) (hacc : (0x00000000#32 : BitVec 32) = 0x00000000#32) (r : Fin 1024) :
    multiReduction .add [1] S1024 (mulf xb xb) 0x00000000#32 reduces_S1024x64_S1024 (.inl rfl) hacc (ix1 r)
      = ∑ k : Fin 64, xb (ix2 r k) * xb (ix2 r k) :=
  (Ideal.multiReduction_add_single (mulf xb xb) 0x00000000#32 reduces_S1024x64_S1024 (.inl rfl) hacc (ix1 r)).trans
    (Finset.sum_congr rfl fun k _ => congrArg (fun i => xb i * xb i)
      (funext fun a => Fin.ext (by match a with | ⟨0, _⟩ => rfl | ⟨1, _⟩ => rfl)))

/-- A column's minimum over the tile's rows, from +∞. -/
theorem colMinTile_apply (d : FVec Ideal S1024x512 .f32) (hacc : (0x7F800000#32 : BitVec 32) = 0x7F800000#32) (v : Fin 512) :
    multiReduction .minimumf [0] S512 d 0x7F800000#32 reduces_S1024x512_S512 (.inl rfl) hacc (ix1 v)
      = (Finset.univ : Finset (Fin 1024)).fold min ⊤ (fun r => d (ix2 r v)) := by
  refine ((multiReduction_minimumf_eq_fold d 0x7F800000#32 reduces_S1024x512_S512 (.inl rfl) hacc (ix1 v)).trans
    (reduces_S1024x512_S512.fold_filter_drop_single _ _ d (ix1 v))).trans ?_
  rw [show FloatOps.ofBits (F := Ideal) .f32 0x7F800000#32 = ⊤ from ofBits_inf,
    show (d ∘ reduces_S1024x512_S512.lift (ix1 v)) = fun r : Fin 1024 => d (ix2 r v) from
      funext fun r => congrArg d (funext fun a => Fin.ext (by match a with | ⟨0, _⟩ => rfl | ⟨1, _⟩ => rfl))]
  rfl

/-- A row's minimum over the codebook, from +∞. -/
theorem rowMinTile_apply (d : FVec Ideal S1024x512 .f32) (hacc : (0x7F800000#32 : BitVec 32) = 0x7F800000#32) (r : Fin 1024) :
    multiReduction .minimumf [1] S1024 d 0x7F800000#32 reduces_S1024x512_S1024 (.inl rfl) hacc (ix1 r)
      = (Finset.univ : Finset (Fin 512)).fold min ⊤ (fun v => d (ix2 r v)) := by
  refine ((multiReduction_minimumf_eq_fold d 0x7F800000#32 reduces_S1024x512_S1024 (.inl rfl) hacc (ix1 r)).trans
    (reduces_S1024x512_S1024.fold_filter_drop_single _ _ d (ix1 r))).trans ?_
  rw [show FloatOps.ofBits (F := Ideal) .f32 0x7F800000#32 = ⊤ from ofBits_inf,
    show (d ∘ reduces_S1024x512_S1024.lift (ix1 r)) = fun v : Fin 512 => d (ix2 r v) from
      funext fun v => congrArg d (funext fun a => Fin.ext (by match a with | ⟨0, _⟩ => rfl | ⟨1, _⟩ => rfl))]
  rfl

/-! ## The stored values -/

/-- The distance block at (r, v). -/
theorem tileDist_apply (xb : Vec Ideal S1024x64 .f32) (pt : Vec Ideal S64x512 .f32) (psq : Vec Ideal S1x512 .f32)
    (r : Fin 1024) (v : Fin 512) :
    k0_pay6 (F := Ideal) xb pt psq (ix2 r v)
      = Ideal.sqrt (max ((∑ k : Fin 64, xb (ix2 r k) * xb (ix2 r k)) + psq (ix2 (0 : Fin 1) v)
          - ((2 : ℝ) : EReal) * ∑ k : Fin 64, xb (ix2 r k) * pt (ix2 k v)) 0) := by
  unfold k0_pay6
  dsimp only
  rw [shapeCast_self, shapeCast_self]
  show Ideal.sqrt (max (broadcastTo S1024x512 _ broadcasts_S1024x1_S1024x512 (ix2 r v) + broadcastTo S1024x512 psq broadcasts_S1x512_S1024x512 (ix2 r v)
      - Ideal.ofBits .f32 0x40000000#32 * FloatOps.matmul (F := Ideal) dot_S1024x64_S64x512_S1024x512_1_0_0_1_n_n none _ _ (constant S1024x512 .f32 0x00000000#32) (ix2 r v))
      (Ideal.ofBits .f32 0x00000000#32)) = _
  rw [broadcastTo_a1_ab_apply, shapeCast_a_a1_apply, rowSumSq_apply, broadcastTo_1b_ab_apply, cross_apply, ofBits_two,
    Ideal.ofBits_zero_f32]
  rfl

/-- The column accumulator's new value at column v. -/
theorem colAcc_apply (xb : Vec Ideal S1024x64 .f32) (pt : Vec Ideal S64x512 .f32) (psq : Vec Ideal S1x512 .f32)
    (acc : Vec Ideal S1x512 .f32) (u : Fin 1) (v : Fin 512) :
    k0_pay7 (F := Ideal) xb pt psq acc (ix2 u v)
      = min (acc (ix2 u v)) ((Finset.univ : Finset (Fin 1024)).fold min ⊤ fun r => k0_pay6 (F := Ideal) xb pt psq (ix2 r v)) := by
  unfold k0_pay7
  dsimp only
  rw [shapeCast_self]
  show min (acc (ix2 u v)) (shapeCast S1x512 _ shapeCasts_S512_S1x512 (ix2 u v)) = _
  rw [shapeCast_a_1a_apply, colMinTile_apply]

/-- The tile's sum of row minima. -/
theorem tileSum_apply (xb : Vec Ideal S1024x64 .f32) (pt : Vec Ideal S64x512 .f32) (psq : Vec Ideal S1x512 .f32) (u u' : Fin 1) :
    k0_pay8 (F := Ideal) xb pt psq (ix2 u u')
      = ∑ r : Fin 1024, (Finset.univ : Finset (Fin 512)).fold min ⊤ fun v => k0_pay6 (F := Ideal) xb pt psq (ix2 r v) := by
  unfold k0_pay8
  dsimp only
  rw [shapeCast_a_a1_apply]
  refine (Ideal.multiReduction_add_single _ 0x00000000#32 reduces_S1024x1_S1 (.inl rfl) rfl (ix1 u)).trans ?_
  show (∑ r : Fin 1024, shapeCast S1024x1 _ shapeCasts_S1024_S1024x1 (reduces_S1024x1_S1.lift (ix1 u) r)) = _
  refine Finset.sum_congr rfl fun r _ => ?_
  rw [show reduces_S1024x1_S1.lift (ix1 u) r = ix2 r u from
    funext fun a => Fin.ext (by match a with | ⟨0, _⟩ => rfl | ⟨1, _⟩ => rfl), shapeCast_a_a1_apply, rowMinTile_apply]

/-- The scalar accumulator's new value: what it held plus the tile's sum. -/
theorem sumAcc_apply (s acc : Vec Ideal S1x1 .f32) (u u' : Fin 1) :
    k0_pay1 (F := Ideal) s acc (ix2 u u') = acc (ix2 u u') + s (ix2 u u') := by
  unfold k0_pay1
  rw [shapeCast_self]
  rfl

/-- The column accumulator starts at +∞. -/
theorem colInit_apply (u : Fin 1) (v : Fin 512) : k0_pay4 (F := Ideal) (ix2 u v) = ⊤ := by
  unfold k0_pay4
  rw [shapeCast_self]
  exact ofBits_inf

/-- The scalar accumulator starts at 0. -/
theorem sumInit_apply (u u' : Fin 1) : k0_pay5 (F := Ideal) (ix2 u u') = 0 := by
  unfold k0_pay5
  rw [shapeCast_self]
  exact Ideal.ofBits_zero_f32

/-- The first scalar result: the column accumulator's sum over the codebook, divided by 512. -/
theorem meanCol_apply (acc : Vec Ideal S1x512 .f32) (u u' : Fin 1) :
    k0_pay2 (F := Ideal) acc (ix2 u u') = Ideal.div (∑ v : Fin 512, acc (ix2 u v)) ((512 : ℝ) : EReal) := by
  unfold k0_pay2
  dsimp only
  show Ideal.div (shapeCast S1x1 _ shapeCasts_S1_S1x1 (ix2 u u')) (Ideal.ofBits .f32 0x44000000#32) = _
  rw [shapeCast_a_a1_apply, ofBits_512]
  refine congrArg (Ideal.div · _) ?_
  refine (Ideal.multiReduction_add_single acc 0x00000000#32 reduces_S1x512_S1 (.inl rfl) rfl (ix1 u)).trans ?_
  exact Finset.sum_congr rfl fun v _ => congrArg acc (funext fun a => Fin.ext (by match a with | ⟨0, _⟩ => rfl | ⟨1, _⟩ => rfl))

/-- The second scalar result: the scalar accumulator times 2⁻¹³. -/
theorem meanRow_apply (acc : Vec Ideal S1x1 .f32) (u u' : Fin 1) :
    k0_pay3 (F := Ideal) acc (ix2 u u') = acc (ix2 u u') * ((1 / 8192 : ℝ) : EReal) := by
  unfold k0_pay3
  show acc (ix2 u u') * Ideal.ofBits .f32 0x39000000#32 = _
  rw [ofBits_inv8192]

end Cert.KernelIdeal.Arith

end
-- ==== Proof.Tiles.lean ====
/-
  The idealized kernel, tile by tile. Grid point t works on samples 1024 t … 1024 t + 1023: its input blocks are those
  rows of x, the codebook transposed, and the row of the codebook's squared norms the host computed; it leaves the tile's
  distances in the distance block, the running column minima in the first accumulator and the running sum of row minima
  in the second. By induction on the tile, the first accumulator's lower bounds after tile n are the common lower bounds
  of the distances over the rows of tiles 0 … n, and the second accumulator is the sum of those tiles' sums of row minima.
  So the distance array ends at the distances, and the two one-element arrays, written at the last tile only, at the two means.
-/
import proofs.«139246_j11802570129617_1_alg».proof.Proof.Gen.KernelIdeal.Frame
import proofs.«139246_j11802570129617_1_alg».proof.Proof.Stored
import proofs.«139246_j11802570129617_1_alg».proof.Proof.Arith
import proofs.«139246_j11802570129617_1_alg».proof.Proof.DistanceLaw
import Idealize.ShloMosaic.Lib.Pipeline.Value
import Idealize.ShloMosaic.Lib.StableHlo.Run
import Idealize.ShloMosaic.Lib.ValueLayout
import Idealize.ShloMosaic.Lib.Tactic

set_option maxRecDepth 16384

noncomputable section

open scoped BigOperators

open Idealize.ShloMosaic Idealize.ShloMosaic.TcCoe Idealize.SL.Sem
open Idealize.ShloMosaic.Pipeline (Dat)

namespace Cert.KernelIdeal.Tiles

open Cert.KernelIdeal Cert.KernelIdeal.Gen Idealize.ShloMosaic.ValueIdx Cert.DistanceLaw

variable (m : (ℓ : Loc nD τ sig) → Buf (Elt Ideal) ℓ) (ρ : Dev nD → PrngReg)

/-- The two argument arrays on core `c`. -/
abbrev xs (c : Dev nD) : S8192x64.Idx → EReal := m ((c : Thread nD τ).loc main_arg0)
abbrev ps (c : Dev nD) : S512x64.Idx → EReal := m ((c : Thread nD τ).loc main_arg1)

/-- The distances, by the expansion the kernel computes. -/
abbrev D (c : Dev nD) : Fin 8192 → Fin 512 → EReal := expDist (xs m c) (ps m c)

/-- A grid point's tile number. -/
def tile (t : Fin cfg0.N) : Fin 8 := ⟨t.val, lt_of_lt_of_eq t.isLt (show cfg0.N = 8 from N_0)⟩

/-- The three input blocks at a grid point, at their literal shapes. -/
abbrev xblk (c : Dev nD) (t : Fin cfg0.N) : Vec Ideal S1024x64 .f32 := iblk m c 0 t
abbrev ptblk (c : Dev nD) (t : Fin cfg0.N) : Vec Ideal S64x512 .f32 := iblk m c 1 t
abbrev psqblk (c : Dev nD) (t : Fin cfg0.N) : Vec Ideal S1x512 .f32 := iblk m c 2 t

/-- The windows' block indices at each grid point: the sample block and the distance block move with the tile, every
    other block stays at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-! ## The input blocks -/

/-- The sample block at tile t is rows 1024 t … of x. -/
theorem xblk_apply (c : Dev nD) (t : Fin cfg0.N) (r : Fin 1024) (k : Fin 64) :
    xblk m c t (ix2 r k) = xs m c (ix2 (row (tile t) r) k) := by
  obtain ⟨e0, e1, -⟩ := idx_facts t
  show ((cfg0.win 0).blk t).view.read (Elt Ideal) (V m c (Pipeline.arrRef spec0 0)) (ix2 r k) = _
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 1024 + 1 * r.val = 1024 * t.val + r.val; omega
  | ⟨1, _⟩ => show win0_0.index t (1 : Fin 2) * 64 + 1 * k.val = k.val; omega

/-- What the host left for the second operand: the codebook transposed. -/
theorem V_pt (c : Dev nD) : (V m c main_v0 : S64x512.Idx → EReal)
    = transpose S64x512 [1, 0] (ps m c) transposes_S512x64_S64x512_1_0 := by
  show StableHlo.after hostOps0 (fun b => m (c, b)) (Proc.devRef .tc main_v0) = _
  after_results

/-- What the host left for the third operand: each codebook vector's sum of squares, as one row. -/
theorem V_psq (c : Dev nD) : (V m c main_v4 : S1x512.Idx → EReal)
    = transpose S1x512 [1, 0] (broadcastInDim S512x1 ![0] bcast_S512_S512x1_0
        (Host.reduceAdd (mulf (ps m c) (ps m c)) (constant (F := Ideal) S_ .f32 0x00000000#32) reducesTo_S512x64_S512_d1 h_S_))
        transposes_S512x1_S1x512_1_0 := by
  show StableHlo.after hostOps0 (fun b => m (c, b)) (Proc.devRef .tc main_v4) = _
  after_results

/-- The codebook block is the whole transposed codebook at every tile. -/
theorem ptblk_apply (c : Dev nD) (t : Fin cfg0.N) (k : Fin 64) (v : Fin 512) :
    ptblk m c t (ix2 k v) = ps m c (ix2 v k) := by
  obtain ⟨-, -, e0, e1, -⟩ := idx_facts t
  show ((cfg0.win 1).blk t).view.read (Elt Ideal) (V m c (Pipeline.arrRef spec0 1)) (ix2 k v) = _
  rw [View.read_apply]
  show V m c main_v0 _ = _
  rw [V_pt, show ((cfg0.win 1).blk t).view.emb (ix2 k v) = ix2 k v from funext fun a => Fin.ext (by
    match a with
    | ⟨0, _⟩ => show win0_1.index t (0 : Fin 2) * 64 + 1 * k.val = k.val; omega
    | ⟨1, _⟩ => show win0_1.index t (1 : Fin 2) * 512 + 1 * v.val = v.val; omega)]
  exact transpose_ix2_apply _ _ k v

/-- The norms block is, at column v, the sum of squares of codebook vector v. -/
theorem psqblk_apply (c : Dev nD) (t : Fin cfg0.N) (u : Fin 1) (v : Fin 512) :
    psqblk m c t (ix2 u v) = 0 + ∑ k : Fin 64, ps m c (ix2 v k) * ps m c (ix2 v k) := by
  obtain ⟨-, -, -, -, e0, e1, -⟩ := idx_facts t
  show ((cfg0.win 2).blk t).view.read (Elt Ideal) (V m c (Pipeline.arrRef spec0 2)) (ix2 u v) = _
  rw [View.read_apply]
  show V m c main_v4 _ = _
  rw [V_psq, show ((cfg0.win 2).blk t).view.emb (ix2 u v) = ix2 u v from funext fun a => Fin.ext (by
    match a with
    | ⟨0, _⟩ => show win0_2.index t (0 : Fin 2) * 1 + 1 * u.val = u.val; omega
    | ⟨1, _⟩ => show win0_2.index t (1 : Fin 2) * 512 + 1 * v.val = v.val; omega)]
  rw [transpose_ix2_apply]
  rw [broadcastInDim_apply _ bcast_S512_S512x1_0 _ (ix2 v u) (ix1 v) (fun a => match a with
    | ⟨0, _⟩ => by show v.val = if (512 : Nat) = 1 then 0 else v.val; rw [if_neg (by decide)])]
  simp only [Host.reduceAdd, Ideal.hostReduceAdd_def]
  rw [Ideal.hostReduceAdd_single reducesTo_S512x64_S512_d1 (by decide)]
  refine congrArg₂ (· + ·) Ideal.ofBits_zero_f32 (Finset.sum_congr rfl fun k _ => ?_)
  exact congrArg (fun i => ps m c i * ps m c i) (funext fun a => Fin.ext (by match a with | ⟨0, _⟩ => rfl | ⟨1, _⟩ => rfl))

/-- The tile's distance block holds the distances of its samples. -/
theorem tileDist (c : Dev nD) (t : Fin cfg0.N) (r : Fin 1024) (v : Fin 512) :
    k0_pay6 (F := Ideal) (xblk m c t) (ptblk m c t) (psqblk m c t) (ix2 r v) = D m c (row (tile t) r) v := by
  refine (Arith.tileDist_apply (xblk m c t) (ptblk m c t) (psqblk m c t) r v).trans ?_
  show _ = expDist (xs m c) (ps m c) (row (tile t) r) v
  unfold expDist
  simp only [xblk_apply, ptblk_apply, psqblk_apply]

/-! ## What each grid point leaves -/

/-- The distance block after any grid point. -/
theorem dist_at (c : Dev nD) (t : Fin cfg0.N) :
    (outsAt0 m c t.val t.isLt).1 = k0_pay6 (xblk m c t) (ptblk m c t) (psqblk m c t) := by
  have hN : t.val < 8 := lt_of_lt_of_eq t.isLt (show cfg0.N = 8 from N_0)
  by_cases h0 : t.val % 8 = 0
  · have h1 : ¬t.val % 8 = 7 := by omega
    rw [outsAt0_A m c t h0 h1]
    dsimp only
    exact Stored.dist_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t)
  · by_cases h1 : t.val % 8 = 7
    · rw [outsAt0_C m c t h0 h1]
      dsimp only
      exact Stored.dist_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2
    · rw [outsAt0_B m c t h0 h1]
      dsimp only
      exact Stored.dist_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- What the point before left in the two accumulators. -/
abbrev prevCol (c : Dev nD) (t : Fin cfg0.N) : Vec Ideal S1x512 .f32 :=
  (outsAt0 m c (t.val - 1) (Nat.lt_of_le_of_lt (Nat.sub_le _ _) t.isLt)).2.2.2.1
abbrev prevSum (c : Dev nD) (t : Fin cfg0.N) : Vec Ideal S1x1 .f32 :=
  (outsAt0 m c (t.val - 1) (Nat.lt_of_le_of_lt (Nat.sub_le _ _) t.isLt)).2.2.2.2

/-- The column accumulator after the first grid point: reset to +∞, then the tile's column minima taken in. -/
theorem colAcc_first (c : Dev nD) (t : Fin cfg0.N) (h0 : t.val % 8 = 0) :
    (outsAt0 m c t.val t.isLt).2.2.2.1 = k0_pay7 (xblk m c t) (ptblk m c t) (psqblk m c t) (k0_pay4 (F := Ideal)) := by
  have hN : t.val < 8 := lt_of_lt_of_eq t.isLt (show cfg0.N = 8 from N_0)
  have h1 : ¬t.val % 8 = 7 := by omega
  rw [outsAt0_A m c t h0 h1]
  dsimp only
  exact Stored.colAcc_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t)

/-- The column accumulator after a later grid point: what the point before left, the tile's column minima taken in. -/
theorem colAcc_next (c : Dev nD) (t : Fin cfg0.N) (h0 : ¬t.val % 8 = 0) :
    (outsAt0 m c t.val t.isLt).2.2.2.1 = k0_pay7 (xblk m c t) (ptblk m c t) (psqblk m c t) (prevCol m c t) := by
  by_cases h1 : t.val % 8 = 7
  · rw [outsAt0_C m c t h0 h1]
    dsimp only
    exact Stored.colAcc_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2
  · rw [outsAt0_B m c t h0 h1]
    dsimp only
    exact Stored.colAcc_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The scalar accumulator after the first grid point: reset to 0, then the tile's sum added. -/
theorem sumAcc_first (c : Dev nD) (t : Fin cfg0.N) (h0 : t.val % 8 = 0) :
    (outsAt0 m c t.val t.isLt).2.2.2.2 = k0_pay1 (k0_pay8 (xblk m c t) (ptblk m c t) (psqblk m c t)) (k0_pay5 (F := Ideal)) := by
  have hN : t.val < 8 := lt_of_lt_of_eq t.isLt (show cfg0.N = 8 from N_0)
  have h1 : ¬t.val % 8 = 7 := by omega
  rw [outsAt0_A m c t h0 h1]
  dsimp only
  exact Stored.sumAcc_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t)

/-- The scalar accumulator after a later grid point: what the point before left, plus the tile's sum. -/
theorem sumAcc_next (c : Dev nD) (t : Fin cfg0.N) (h0 : ¬t.val % 8 = 0) :
    (outsAt0 m c t.val t.isLt).2.2.2.2 = k0_pay1 (k0_pay8 (xblk m c t) (ptblk m c t) (psqblk m c t)) (prevSum m c t) := by
  by_cases h1 : t.val % 8 = 7
  · rw [outsAt0_C m c t h0 h1]
    dsimp only
    exact Stored.sumAcc_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2
  · rw [outsAt0_B m c t h0 h1]
    dsimp only
    exact Stored.sumAcc_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The two one-element outputs after the last grid point. -/
theorem meanCol_last (c : Dev nD) (t : Fin cfg0.N) (h1 : t.val % 8 = 7) :
    (outsAt0 m c t.val t.isLt).2.1 = k0_pay2 (k0_pay7 (xblk m c t) (ptblk m c t) (psqblk m c t) (prevCol m c t)) := by
  have h0 : ¬t.val % 8 = 0 := by omega
  rw [outsAt0_C m c t h0 h1]
  dsimp only
  exact Stored.meanCol_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem meanRow_last (c : Dev nD) (t : Fin cfg0.N) (h1 : t.val % 8 = 7) :
    (outsAt0 m c t.val t.isLt).2.2.1 = k0_pay3 (k0_pay1 (k0_pay8 (xblk m c t) (ptblk m c t) (psqblk m c t)) (prevSum m c t)) := by
  have h0 : ¬t.val % 8 = 0 := by omega
  rw [outsAt0_C m c t h0 h1]
  dsimp only
  exact Stored.meanRow_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2

/-! ## The accumulators, by induction on the tile -/

/-- The column accumulator after tile n: its lower bounds are the common lower bounds of the distances to codebook vector
    v over the rows of tiles 0 … n. -/
theorem colAcc_lower (c : Dev nD) : ∀ (n : ℕ) (h : n < cfg0.N) (u : Fin 1) (v : Fin 512) (y : EReal),
    y ≤ (outsAt0 m c n h).2.2.2.1 (ix2 u v) ↔ ∀ s : Fin 8, s.val ≤ n → ∀ r : Fin 1024, y ≤ D m c (row s r) v
  | 0, h, u, v, y => by
    have e := colAcc_first m c ⟨0, h⟩ rfl
    rw [show (outsAt0 m c 0 h).2.2.2.1 = _ from e, Arith.colAcc_apply, Arith.colInit_apply, le_min_iff, le_foldMin_iff]
    simp only [tileDist]
    constructor
    · rintro ⟨-, H⟩ s hs r
      obtain rfl : s = tile ⟨0, h⟩ := Fin.ext (by show s.val = 0; omega)
      exact H r
    · intro H
      exact ⟨le_top, fun r => H (tile ⟨0, h⟩) (Nat.le_refl 0) r⟩
  | n + 1, h, u, v, y => by
    have hN : cfg0.N = 8 := N_0
    have hB : ¬(⟨n + 1, h⟩ : Fin cfg0.N).val % 8 = 0 := by dsimp only; omega
    have e := colAcc_next m c ⟨n + 1, h⟩ hB
    rw [show (outsAt0 m c (n + 1) h).2.2.2.1 = _ from e, Arith.colAcc_apply, le_min_iff, le_foldMin_iff]
    simp only [tileDist]
    rw [show prevCol m c ⟨n + 1, h⟩ (ix2 u v) = (outsAt0 m c n (Nat.lt_of_succ_lt h)).2.2.2.1 (ix2 u v) from rfl,
      colAcc_lower c n (Nat.lt_of_succ_lt h) u v y]
    constructor
    · rintro ⟨H1, H2⟩ s hs r
      by_cases hs' : s.val ≤ n
      · exact H1 s hs' r
      · obtain rfl : s = tile ⟨n + 1, h⟩ := Fin.ext (by show s.val = n + 1; omega)
        exact H2 r
    · intro H
      exact ⟨fun s hs r => H s (Nat.le_succ_of_le hs) r, fun r => H (tile ⟨n + 1, h⟩) (Nat.le_refl _) r⟩

/-- The sum of a tile's row minima (0 past the last tile). -/
def tileSums (c : Dev nD) (s : ℕ) : EReal := if h : s < 8 then ∑ r : Fin 1024, rowMin (D m c) (row ⟨s, h⟩ r) else 0

/-- What a grid point adds to the scalar accumulator. -/
theorem tileSum_eq (c : Dev nD) (t : Fin cfg0.N) (u u' : Fin 1) :
    k0_pay8 (F := Ideal) (xblk m c t) (ptblk m c t) (psqblk m c t) (ix2 u u') = tileSums m c t.val := by
  rw [Arith.tileSum_apply]
  unfold tileSums
  rw [dif_pos (show t.val < 8 from (tile t).isLt)]
  refine Finset.sum_congr rfl fun r _ => ?_
  unfold rowMin
  exact congrArg (fun f => (Finset.univ : Finset (Fin 512)).fold min ⊤ f) (funext fun v => tileDist m c t r v)

/-- The scalar accumulator after tile n: the sum of the sums of row minima of tiles 0 … n. -/
theorem sumAcc_eq (c : Dev nD) : ∀ (n : ℕ) (h : n < cfg0.N) (u u' : Fin 1),
    (outsAt0 m c n h).2.2.2.2 (ix2 u u') = ∑ s ∈ Finset.range (n + 1), tileSums m c s
  | 0, h, u, u' => by
    have e := sumAcc_first m c ⟨0, h⟩ rfl
    rw [show (outsAt0 m c 0 h).2.2.2.2 = _ from e, Arith.sumAcc_apply, Arith.sumInit_apply, zero_add, tileSum_eq,
      Finset.sum_range_succ, Finset.range_zero, Finset.sum_empty, zero_add]
  | n + 1, h, u, u' => by
    have hN : cfg0.N = 8 := N_0
    have hB : ¬(⟨n + 1, h⟩ : Fin cfg0.N).val % 8 = 0 := by dsimp only; omega
    have e := sumAcc_next m c ⟨n + 1, h⟩ hB
    rw [show (outsAt0 m c (n + 1) h).2.2.2.2 = _ from e, Arith.sumAcc_apply, tileSum_eq,
      show prevSum m c ⟨n + 1, h⟩ (ix2 u u') = (outsAt0 m c n (Nat.lt_of_succ_lt h)).2.2.2.2 (ix2 u u') from rfl,
      sumAcc_eq c n (Nat.lt_of_succ_lt h) u u', Finset.sum_range_succ _ (n + 1)]

/-! ## The two means, at the last tile -/

theorem last_val (t : Fin cfg0.N) (h1 : t.val % 8 = 7) : t.val = 7 := by
  have := lt_of_lt_of_eq t.isLt (show cfg0.N = 8 from N_0)
  omega

/-- The first one-element output: the mean over the codebook of the column minima. -/
theorem meanCol_value (c : Dev nD) (t : Fin cfg0.N) (h1 : t.val % 8 = 7) (u u' : Fin 1) :
    (outsAt0 m c t.val t.isLt).2.1 (ix2 u u') = meanColMin (D m c) := by
  have h0 : ¬t.val % 8 = 0 := by omega
  rw [meanCol_last m c t h1, ← colAcc_next m c t h0, Arith.meanCol_apply]
  unfold meanColMin
  rw [zero_add]
  refine congrArg (Ideal.div · _) (Finset.sum_congr rfl fun v _ => ?_)
  refine eq_colMin (D m c) v _ fun y => ?_
  rw [colAcc_lower m c t.val t.isLt u v y]
  exact ⟨fun H s r => H s (by have := s.isLt; have := last_val t h1; omega) r, fun H s _ r => H s r⟩

/-- The second one-element output: the mean over the samples of the row minima. -/
theorem meanRow_value (c : Dev nD) (t : Fin cfg0.N) (h1 : t.val % 8 = 7) (u u' : Fin 1) :
    (outsAt0 m c t.val t.isLt).2.2.1 (ix2 u u') = meanRowMin (D m c) := by
  have h0 : ¬t.val % 8 = 0 := by omega
  rw [meanRow_last m c t h1, ← sumAcc_next m c t h0, Arith.meanRow_apply, sumAcc_eq m c t.val t.isLt u u', last_val t h1,
    ← scaled_sum_eq_meanRowMin]
  show (∑ s ∈ Finset.range 8, tileSums m c s) * _ = _
  rw [Finset.sum_range]
  refine congrArg (· * _) (Finset.sum_congr rfl fun s _ => ?_)
  unfold tileSums
  rw [dif_pos s.isLt]

/-! ## The three arrays after the run -/

/-- The distance block as one function of the block's index. -/
theorem tileDist_fun (c : Dev nD) (t : Fin cfg0.N) :
    k0_pay6 (F := Ideal) (xblk m c t) (ptblk m c t) (psqblk m c t) = fun j : S1024x512.Idx => D m c (row (tile t) (j 0)) (j 1) :=
  funext fun j => by
    obtain ⟨r, v, rfl⟩ : ∃ (r : Fin 1024) (v : Fin 512), j = ix2 r v := ⟨j 0, j 1, eq_ix2 j⟩
    exact tileDist m c t r v

/-- The distance array, whole. -/
abbrev distArr (c : Dev nD) : Buf (Elt Ideal) ((c : Thread nD τ).loc main_v5_0) := fun i : S8192x512.Idx => D m c (i 0) (i 1)

/-- What grid point t writes back is block t of the distance array. -/
theorem flushed_dist (c : Dev nD) (t : Fin cfg0.N) :
    (dats m 0 c).flushed 3 t = ((cfg0.win 3).blk t).view.read (Elt Ideal) (distArr m c) := by
  obtain ⟨-, -, -, -, -, -, e0, e1, -⟩ := idx_facts t
  show (cfg0.win 3).cut (grid0.coords t) ((dats m 0 c).after 3 t) = _
  rw [after0_3, dist_at, tileDist_fun]
  funext j
  rw [View.read_apply]
  show D m c (row (tile t) (j 0)) (j 1) = D m c ((((cfg0.win 3).blk t).view.emb j) 0) ((((cfg0.win 3).blk t).view.emb j) 1)
  refine congrArg₂ (D m c) (Fin.ext ?_) (Fin.ext ?_)
  · show 1024 * t.val + (j 0).val = win0_3.index t (0 : Fin 2) * 1024 + 1 * (j 0).val
    omega
  · show (j 1).val = win0_3.index t (1 : Fin 2) * 512 + 1 * (j 1).val
    omega

/-- An index of the distance array is in grid point t's block iff each coordinate is in the block's range. -/
theorem mem_blk_dist (t : Fin cfg0.N) (i : S8192x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v5_0).slice (win0_3.rect t)).set ↔ _
  rw [View.set_slice_whole, Rect.mem_set_unit]
  exact Iff.rfl

/-- The tiles' blocks cover the distance array: row b lies in tile b / 1024. -/
theorem cover_dist (i : S8192x512.Idx) : ∃ t : Fin cfg0.N, (cfg0.win 3).flush t = true ∧ i ∈ ((cfg0.win 3).blk t).view.set := by
  have hi0 : (i 0).val < 8192 := (i 0).isLt
  have hi1 : (i 1).val < 512 := (i 1).isLt
  obtain ⟨t, ht⟩ : ∃ t : Fin cfg0.N, t.val = (i 0).val / 1024 := ⟨⟨(i 0).val / 1024, by rw [show cfg0.N = 8 from N_0]; omega⟩, rfl⟩
  obtain ⟨-, -, -, -, -, -, e0, e1, -⟩ := idx_facts t
  refine ⟨t, flush0_3 t, ?_⟩
  rw [mem_blk_dist]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 512 ≤ (i 1).val ∧ (i 1).val < win0_3.index t (1 : Fin 2) * 512 + 512
    omega

theorem final_dist (c : Dev nD) : (dats m 0 c).arrAt 3 cfg0.N = distArr m c :=
  (dats m 0 c).arrAt_eq_of_cover 3 (distArr m c) (fun t _ => flushed_dist m c t) cover_dist

/-- The two one-element arrays. -/
abbrev meanColArr (c : Dev nD) : Buf (Elt Ideal) ((c : Thread nD τ).loc main_v5_1) := fun _ : S1x1.Idx => meanColMin (D m c)
abbrev meanRowArr (c : Dev nD) : Buf (Elt Ideal) ((c : Thread nD τ).loc main_v5_2) := fun _ : S1x1.Idx => meanRowMin (D m c)

theorem meanCol_fun (c : Dev nD) (t : Fin cfg0.N) (h1 : t.val % 8 = 7) :
    (outsAt0 m c t.val t.isLt).2.1 = fun _ : S1x1.Idx => meanColMin (D m c) :=
  funext fun j => by
    obtain ⟨u, u', rfl⟩ : ∃ (u u' : Fin 1), j = ix2 u u' := ⟨j 0, j 1, eq_ix2 j⟩
    exact meanCol_value m c t h1 u u'

theorem meanRow_fun (c : Dev nD) (t : Fin cfg0.N) (h1 : t.val % 8 = 7) :
    (outsAt0 m c t.val t.isLt).2.2.1 = fun _ : S1x1.Idx => meanRowMin (D m c) :=
  funext fun j => by
    obtain ⟨u, u', rfl⟩ : ∃ (u u' : Fin 1), j = ix2 u u' := ⟨j 0, j 1, eq_ix2 j⟩
    exact meanRow_value m c t h1 u u'

/-- The one write-back of each one-element array, at the last grid point, writes the mean. -/
theorem flushed_meanCol (c : Dev nD) (t : Fin cfg0.N) (hf : (cfg0.win 4).flush t = true) :
    (dats m 0 c).flushed 4 t = ((cfg0.win 4).blk t).view.read (Elt Ideal) (meanColArr m c) := by
  have h1 : t.val % 8 = 7 := (flush0_4 t).mp hf
  show (cfg0.win 4).cut (grid0.coords t) ((dats m 0 c).after 4 t) = _
  rw [after0_4, meanCol_fun m c t h1]
  funext j
  rw [View.read_apply]
  exact rfl

theorem flushed_meanRow (c : Dev nD) (t : Fin cfg0.N) (hf : (cfg0.win 5).flush t = true) :
    (dats m 0 c).flushed 5 t = ((cfg0.win 5).blk t).view.read (Elt Ideal) (meanRowArr m c) := by
  have h1 : t.val % 8 = 7 := (flush0_5 t).mp hf
  show (cfg0.win 5).cut (grid0.coords t) ((dats m 0 c).after 5 t) = _
  rw [after0_5, meanRow_fun m c t h1]
  funext j
  rw [View.read_apply]
  exact rfl

theorem mem_blk_meanCol (t : Fin cfg0.N) (i : S1x1.Idx) :
    i ∈ ((cfg0.win 4).blk t).view.set ↔ ∀ a : Fin 2, win0_4.index t a * S1x1.size a ≤ (i a).val ∧ (i a).val < win0_4.index t a * S1x1.size a + S1x1.size a := by
  show i ∈ ((View.whole main_v5_1).slice (win0_4.rect t)).set ↔ _
  rw [View.set_slice_whole, Rect.mem_set_unit]
  exact Iff.rfl

theorem mem_blk_meanRow (t : Fin cfg0.N) (i : S1x1.Idx) :
    i ∈ ((cfg0.win 5).blk t).view.set ↔ ∀ a : Fin 2, win0_5.index t a * S1x1.size a ≤ (i a).val ∧ (i a).val < win0_5.index t a * S1x1.size a + S1x1.size a := by
  show i ∈ ((View.whole main_v5_2).slice (win0_5.rect t)).set ↔ _
  rw [View.set_slice_whole, Rect.mem_set_unit]
  exact Iff.rfl

theorem cover_meanCol (i : S1x1.Idx) : ∃ t : Fin cfg0.N, (cfg0.win 4).flush t = true ∧ i ∈ ((cfg0.win 4).blk t).view.set := by
  have hi0 : (i 0).val < 1 := (i 0).isLt
  have hi1 : (i 1).val < 1 := (i 1).isLt
  obtain ⟨-, -, -, -, -, -, -, -, e0, e1, -⟩ := idx_facts t0_7
  refine ⟨t0_7, (flush0_4 t0_7).mpr rfl, ?_⟩
  rw [mem_blk_meanCol]
  intro a
  match a with
  | ⟨0, _⟩ =>
    show win0_4.index t0_7 (0 : Fin 2) * 1 ≤ (i 0).val ∧ (i 0).val < win0_4.index t0_7 (0 : Fin 2) * 1 + 1
    omega
  | ⟨1, _⟩ =>
    show win0_4.index t0_7 (1 : Fin 2) * 1 ≤ (i 1).val ∧ (i 1).val < win0_4.index t0_7 (1 : Fin 2) * 1 + 1
    omega

theorem cover_meanRow (i : S1x1.Idx) : ∃ t : Fin cfg0.N, (cfg0.win 5).flush t = true ∧ i ∈ ((cfg0.win 5).blk t).view.set := by
  have hi0 : (i 0).val < 1 := (i 0).isLt
  have hi1 : (i 1).val < 1 := (i 1).isLt
  obtain ⟨-, -, -, -, -, -, -, -, -, -, e0, e1⟩ := idx_facts t0_7
  refine ⟨t0_7, (flush0_5 t0_7).mpr rfl, ?_⟩
  rw [mem_blk_meanRow]
  intro a
  match a with
  | ⟨0, _⟩ =>
    show win0_5.index t0_7 (0 : Fin 2) * 1 ≤ (i 0).val ∧ (i 0).val < win0_5.index t0_7 (0 : Fin 2) * 1 + 1
    omega
  | ⟨1, _⟩ =>
    show win0_5.index t0_7 (1 : Fin 2) * 1 ≤ (i 1).val ∧ (i 1).val < win0_5.index t0_7 (1 : Fin 2) * 1 + 1
    omega

theorem final_meanCol (c : Dev nD) : (dats m 0 c).arrAt 4 cfg0.N = meanColArr m c :=
  (dats m 0 c).arrAt_eq_of_cover 4 (meanColArr m c) (flushed_meanCol m c) cover_meanCol

theorem final_meanRow (c : Dev nD) : (dats m 0 c).arrAt 5 cfg0.N = meanRowArr m c :=
  (dats m 0 c).arrAt_eq_of_cover 5 (meanRowArr m c) (flushed_meanRow m c) cover_meanRow

/-! ## The host's two reshapes after the call, and the run -/

/-- The first scalar result: the one-element array recast to rank 0. -/
theorem tail_meanCol (c : Dev nD) :
    Pipeline.afterTail₀ cfgs (dats m) 0 (V0 m) [hostOps1] c main_v6 = fun _ => meanColMin (D m c) := by
  unfold Pipeline.afterTail₀
  show StableHlo.after hostOps1 _ (Proc.devRef .tc main_v6) = _
  after_results
  rw [show Pipeline.withArrays (cfgs 0).spec c (V0 m c) (fun w => (dats m 0 c).arrAt w (cfgs 0).N) (Proc.tc.devRef main_v5_1)
      = meanColArr m c from (Pipeline.withArrays_arr spec0 launch0.win.arr_inj c _ _ 4).trans (final_meanCol m c)]
  rfl

/-- The second scalar result, likewise. -/
theorem tail_meanRow (c : Dev nD) :
    Pipeline.afterTail₀ cfgs (dats m) 0 (V0 m) [hostOps1] c main_v7 = fun _ => meanRowMin (D m c) := by
  unfold Pipeline.afterTail₀
  show StableHlo.after hostOps1 _ (Proc.devRef .tc main_v7) = _
  after_results
  rw [show Pipeline.withArrays (cfgs 0).spec c (V0 m c) (fun w => (dats m 0 c).arrAt w (cfgs 0).N) (Proc.tc.devRef main_v5_2)
      = meanRowArr m c from (Pipeline.withArrays_arr spec0 launch0.win.arr_inj c _ _ 5).trans (final_meanRow m c)]
  rfl

/-- The idealized kernel's run, read: the distance array at the distances, the two scalars at the two means, the
    arguments unchanged. -/
theorem run : θ_run defs (onTc (τ := τ) (main (F := Ideal))) ⟨m, fun _ => 0, ρ⟩ fun r => ∀ c : Dev nD,
      r.2.mem ((c : Thread nD τ).loc main_v5_0) = distArr m c
      ∧ r.2.mem ((c : Thread nD τ).loc main_v6) = (fun _ => meanColMin (D m c))
      ∧ r.2.mem ((c : Thread nD τ).loc main_v7) = (fun _ => meanRowMin (D m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 3).trans (final_dist m c),
      ((h c).2 main_v6 (Pipeline.mem_restRefs_of main_v6 (by decide) (by decide))).trans (tail_meanCol m c),
      ((h c).2 main_v7 (Pipeline.mem_restRefs_of main_v7 (by decide) (by decide))).trans (tail_meanRow m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

/-- The same run on arrays of real numbers: there the expansion is the root of the sum of squared differences. -/
theorem run_real (hreal : ∀ c : Dev nD, (∀ i, ∃ r : ℝ, xs m c i = r) ∧ (∀ i, ∃ r : ℝ, ps m c i = r)) :
    θ_run defs (onTc (τ := τ) (main (F := Ideal))) ⟨m, fun _ => 0, ρ⟩ fun r => ∀ c : Dev nD,
      r.2.mem ((c : Thread nD τ).loc main_v5_0) = (fun i : S8192x512.Idx => euclid (xs m c) (ps m c) (i 0) (i 1))
      ∧ r.2.mem ((c : Thread nD τ).loc main_v6) = (fun _ => meanColMin (euclid (xs m c) (ps m c)))
      ∧ r.2.mem ((c : Thread nD τ).loc main_v7) = (fun _ => meanRowMin (euclid (xs m c) (ps m c)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    have e : D m c = euclid (xs m c) (ps m c) := expDist_eq_euclid _ _ (hreal c).1 (hreal c).2
    obtain ⟨h0, h1, h2, h3, h4⟩ := h c
    rw [← e]
    exact ⟨h0, h1, h2, h3, h4⟩) (run m ρ)

end Cert.KernelIdeal.Tiles

end
-- ==== Proof.lean ====
/-
  The certificate of a pairwise-distance kernel against its reference, over the extended reals.

  Both programs take samples x (8192 × 64) and a codebook p (512 × 64) and return the 8192 × 512 Euclidean distances,
  the mean over the codebook of each vector's least distance over the samples, and the mean over the samples of each
  sample's least distance over the codebook. The reference takes the root of Σ_k (x_bk − p_vk)²; the kernel, tile by tile
  over the samples, takes the root of max(‖x_b‖² + ‖p_v‖² − 2⟨x_b, p_v⟩, 0), keeps a running column minimum and a running
  sum of row minima, and at the last tile divides the one by 512 and multiplies the other by 2⁻¹³.

  Under the precondition every entry is a real number, so the expansion of the square holds and the sum of squares is
  nonnegative: the clamp changes nothing and the two distances are one function. A minimum taken block by block from +∞
  is the minimum over all rows (both are characterised by their lower bounds); a sum taken block by block is the whole
  sum; and dividing by 8192 is multiplying by 2⁻¹³, exactly, on every extended real. The ideal pass rewrote nothing, so
  the idealization claim is trivial; the three frames are the generated ones (the reference's from its generated run).
-/
import proofs.«139246_j11802570129617_1_alg».proof.Defs
import proofs.«139246_j11802570129617_1_alg».proof.Proof.Gen.Kernel
import proofs.«139246_j11802570129617_1_alg».proof.Proof.Gen.Kernel.Skeleton
import proofs.«139246_j11802570129617_1_alg».proof.Proof.Gen.Kernel.Launch
import proofs.«139246_j11802570129617_1_alg».proof.Proof.Gen.Kernel.Points
import proofs.«139246_j11802570129617_1_alg».proof.Proof.Gen.Kernel.Frame
import proofs.«139246_j11802570129617_1_alg».proof.Proof.Gen.KernelIdeal
import proofs.«139246_j11802570129617_1_alg».proof.Proof.Gen.KernelIdeal.Skeleton
import proofs.«139246_j11802570129617_1_alg».proof.Proof.Gen.KernelIdeal.Launch
import proofs.«139246_j11802570129617_1_alg».proof.Proof.Gen.KernelIdeal.Points
import proofs.«139246_j11802570129617_1_alg».proof.Proof.Gen.KernelIdeal.Frame
import proofs.«139246_j11802570129617_1_alg».proof.Proof.Gen.ReferenceIdeal
import proofs.«139246_j11802570129617_1_alg».proof.Proof.Gen.ReferenceIdeal.Run
import proofs.«139246_j11802570129617_1_alg».proof.Proof.Gen.ReferenceIdeal.Read
import proofs.«139246_j11802570129617_1_alg».proof.Proof.Gen.Pre_finite_inputs
import proofs.«139246_j11802570129617_1_alg».proof.Proof.DistanceLaw
import proofs.«139246_j11802570129617_1_alg».proof.Proof.RealEntries
import proofs.«139246_j11802570129617_1_alg».proof.Proof.Reference
import proofs.«139246_j11802570129617_1_alg».proof.Proof.Tiles
import Idealize.ShloMosaic.Adequacy
import Idealize.ShloMosaic.Init

noncomputable section

namespace Cert.Proof

open Idealize.ShloMosaic Idealize.ShloMosaic.TcCoe Idealize.SL.Sem
open Cert.DistanceLaw

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => ⟨(h c).2.2.2.1, (h c).2.2.2.2⟩)
    (Cert.ReferenceIdeal.Value.run (F := Ideal) m ρ)

theorem preserves : Cert.preserves_Kernel_KernelIdeal := trivial

/-- From memories that agree on x and p, both finite: on real entries the kernel's three results are the distances by
    the squared differences and their two means, and so are the reference's. -/
theorem algebraic : Cert.algebraic_KernelIdeal_ReferenceIdeal := by
  intro m ρ m' ρ' hpre hagree
  have hreal := fun c => Cert.Pre_finite_inputs.Decode.real_entries _ _ (hpre c)
  refine ⟨_, _, _, Cert.KernelIdeal.Tiles.run_real m ρ hreal, ?_⟩
  refine (θ_run Cert.ReferenceIdeal.defs _ _).mono (fun _ h c => ?_) (Cert.ReferenceIdeal.Value.run (F := Ideal) m' ρ')
  obtain ⟨h7, h10, h13, ha0, ha1⟩ := h c
  refine ⟨h7.trans ?_, h10.trans ?_, h13.trans ?_, ha0, ha1⟩
  · rw [Cert.ReferenceIdeal.Read.val_main_v7_eq, Cert.ReferenceIdeal.Results.distances_eq, (hagree c).1, (hagree c).2]
  · rw [Cert.ReferenceIdeal.Read.val_main_v10_eq, Cert.ReferenceIdeal.Results.meanCol_eq, (hagree c).1, (hagree c).2]
    rfl
  · rw [Cert.ReferenceIdeal.Read.val_main_v13_eq, Cert.ReferenceIdeal.Results.meanRow_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
